-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v37) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S131072x128 : Shape := ⟨2, ![131072, 128]⟩
abbrev S131072 : Shape := ⟨1, ![131072]⟩
abbrev S128x64 : Shape := ⟨2, ![128, 64]⟩
abbrev S128x128 : Shape := ⟨2, ![128, 128]⟩
abbrev S_ : Shape := ⟨0, ![]⟩

class Facts : Prop where
  bcast_S_S131072x128 : S_.BroadcastsInDim S131072x128 (![] : Fin 0 → Fin S131072x128.rank)
  reducesTo_S131072x128_S_d0_1 : S131072x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S128x128 : S_.BroadcastsInDim S128x128 (![] : Fin 0 → Fin S128x128.rank)
  reducesTo_S128x128_S_d0_1 : S128x128.ReducesTo [0, 1] S_

variable [Facts]

def fn_part1 {F : FTy → Type} [FloatOps F] (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  main_v18

def fn {F : FTy → Type} [FloatOps F] (main_arg0 : FVec F S131072x128 .f32) (main_arg1 : IVec S131072 32) (main_arg2 : FVec F S128x64 .f32) (main_arg3 : FVec F S128x64 .f32) (main_arg4 : FVec F S128x128 .f32) : IVec S_ 1 :=
  let main_v0 : FVec F S131072x128 .f32 := Host.absf main_arg0
  let main_cst : FVec F S_ .f32 := constant S_ .f32 0x7F800000#32
  let main_v1 : FVec F S131072x128 .f32 := broadcastInDim S131072x128 ![] bcast_S_S131072x128 main_cst
  let main_v2 : IVec S131072x128 1 := cmpf .olt main_v0 main_v1
  let main_c : IVec S_ 1 := constantI S_ 1 1#1
  let main_v3 : IVec S_ 1 := (fun x v => Host.reduce IntOp.andi x v reducesTo_S131072x128_S_d0_1 h_S_) main_v2 main_c
  let main_v4 : FVec F S128x64 .f32 := Host.absf main_arg2
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S128x64 .f32 := Host.absf main_arg3
  let main_cst_2 : FVec F S_ .f32 := constant S_ .f32 0x7F800000#32
  let main_v10 : FVec F S128x64 .f32 := broadcastInDim S128x64 ![] bcast_S_S128x64 main_cst_2
  let main_v11 : IVec S128x64 1 := cmpf .olt main_v9 main_v10
  let main_c_3 : IVec S_ 1 := constantI S_ 1 1#1
  let main_v12 : IVec S_ 1 := (fun x v => Host.reduce IntOp.andi x v reducesTo_S128x64_S_d0_1 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_v13 main_v16
-- ==== Kernel.lean ====
abbrev S131072x128 : Shape := ⟨2, ![131072, 128]⟩
abbrev S131072 : Shape := ⟨1, ![131072]⟩
abbrev S128x64 : Shape := ⟨2, ![128, 64]⟩
abbrev S128x128 : Shape := ⟨2, ![128, 128]⟩
abbrev S_ : Shape := ⟨0, ![]⟩
abbrev S128 : Shape := ⟨1, ![128]⟩
abbrev S1x128 : Shape := ⟨2, ![1, 128]⟩
abbrev S131072x1 : Shape := ⟨2, ![131072, 1]⟩
abbrev S2048x128 : Shape := ⟨2, ![2048, 128]⟩
abbrev S2048x1 : Shape := ⟨2, ![2048, 1]⟩
abbrev S2048 : Shape := ⟨1, ![2048]⟩

abbrev nBuf : Space → Nat
  | .hbm => 35
  | .vmem => 8
  | .smem => 0
  | _ => 0

abbrev bufTy : (tb : Table) → Fin (tcTables nBuf tb) → BufTy
  | .hbm, ⟨0, _⟩ => ⟨S131072x128, .f32⟩
  | .hbm, ⟨1, _⟩ => ⟨S131072, .i32⟩
  | .hbm, ⟨2, _⟩ => ⟨S128x64, .f32⟩
  | .hbm, ⟨3, _⟩ => ⟨S128x64, .f32⟩
  | .hbm, ⟨4, _⟩ => ⟨S128x128, .f32⟩
  | .hbm, ⟨5, _⟩ => ⟨S128x64, .f32⟩
  | .hbm, ⟨6, _⟩ => ⟨S_, .f32⟩
  | .hbm, ⟨7, _⟩ => ⟨S128, .f32⟩
  | .hbm, ⟨8, _⟩ => ⟨S128x64, .f32⟩
  | .hbm, ⟨9, _⟩ => ⟨S_, .f32⟩
  | .hbm, ⟨10, _⟩ => ⟨S128, .f32⟩
  | .hbm, ⟨11, _⟩ => ⟨S128, .f32⟩
  | .hbm, ⟨12, _⟩ => ⟨S128x64, .f32⟩
  | .hbm, ⟨13, _⟩ => ⟨S_, .f32⟩
  | .hbm, ⟨14, _⟩ => ⟨S128, .f32⟩
  | .hbm, ⟨15, _⟩ => ⟨S128, .f32⟩
  | .hbm, ⟨16, _⟩ => ⟨S128, .f32⟩
  | .hbm, ⟨17, _⟩ => ⟨S_, .f32⟩
  | .hbm, ⟨18, _⟩ => ⟨S128, .f32⟩
  | .hbm, ⟨19, _⟩ => ⟨S128, .f32⟩
  | .hbm, ⟨20, _⟩ => ⟨S128, .f32⟩
  | .hbm, ⟨21, _⟩ => ⟨S_, .f32⟩
  | .hbm, ⟨22, _⟩ => ⟨S128, .f32⟩
  | .hbm, ⟨23, _⟩ => ⟨S128, .f32⟩
  | .hbm, ⟨24, _⟩ => ⟨S_, .f32⟩
  | .hbm, ⟨25, _⟩ => ⟨S128, .f32⟩
  | .hbm, ⟨26, _⟩ => ⟨S128, .f32⟩
  | .hbm, ⟨27, _⟩ => ⟨S1x128, .f32⟩
  | .hbm, ⟨28, _⟩ => ⟨S128x128, .f32⟩
  | .hbm, ⟨29, _⟩ => ⟨S131072x1, .i32⟩
  | .hbm, ⟨30, _⟩ => ⟨S131072x1, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .local _ .vmem, ⟨0, _⟩ => ⟨S2048x128, .f32⟩
  | .local _ .vmem, ⟨1, _⟩ => ⟨S2048x128, .f32⟩
  | .local _ .vmem, ⟨2, _⟩ => ⟨S2048x1, .i32⟩
  | .local _ .vmem, ⟨3, _⟩ => ⟨S2048x1, .i32⟩
  | .local _ .vmem, ⟨4, _⟩ => ⟨S128x128, .f32⟩
  | .local _ .vmem, ⟨5, _⟩ => ⟨S1x128, .f32⟩
  | .local _ .vmem, ⟨6, _⟩ => ⟨S2048x1, .f32⟩
  | .local _ .vmem, ⟨7, _⟩ => ⟨S2048x1, .f32⟩
  | _, _ => ⟨S131072x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_call0_v0 : Ref sig .tc := ⟨.hbm, 8, rfl⟩
abbrev main_call0_cst : Ref sig .tc := ⟨.hbm, 9, rfl⟩
abbrev main_call0_v1 : Ref sig .tc := ⟨.hbm, 10, rfl⟩
abbrev main_v2 : Ref sig .tc := ⟨.hbm, 11, rfl⟩
abbrev main_call1_v0 : Ref sig .tc := ⟨.hbm, 12, rfl⟩
abbrev main_call1_cst : Ref sig .tc := ⟨.hbm, 13, rfl⟩
abbrev main_call1_v1 : Ref sig .tc := ⟨.hbm, 14, rfl⟩
abbrev main_v3 : Ref sig .tc := ⟨.hbm, 15, rfl⟩
abbrev main_v4 : Ref sig .tc := ⟨.hbm, 16, rfl⟩
abbrev main_cst_0 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst_1 : Ref sig .tc := ⟨.hbm, 21, rfl⟩
abbrev main_v8 : Ref sig .tc := ⟨.hbm, 22, rfl⟩
abbrev main_v9 : Ref sig .tc := ⟨.hbm, 23, rfl⟩
abbrev main_cst_2 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_cst_3 : Ref sig .tc := ⟨.hbm, 31, rfl⟩
abbrev main_v16 : Ref sig .tc := ⟨.hbm, 32, rfl⟩
abbrev main_cst_4 : Ref sig .tc := ⟨.hbm, 33, rfl⟩
abbrev main_v17 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S2048x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  reducesTo_S128x64_S128_d1 : S128x64.ReducesTo [1] S128
  h_S_ : 0 < S_.numel
  bcast_S_S128 : S_.BroadcastsInDim S128 (![] : Fin 0 → Fin S128.rank)
  shapeCasts_S128_S1x128 : S128.ShapeCasts S1x128
  transposes_S128x128_S128x128_1_0 : S128x128.Transposes [1, 0] S128x128
  shapeCasts_S131072_S131072x1 : S131072.ShapeCasts S131072x1
  inb_S2048x128_S2048x128_0_0 : ∀ a, (![0, 0] : Fin 2 → Nat) a + S2048x128.size a ≤ S2048x128.size a
  h_S2048x128 : 0 < S2048x128.numel
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  iota_S2048x128_d1_w32 : S2048x128.Iotas .tc 32 [1]
  broadcasts_S2048x1_S2048x128 : S2048x1.Broadcasts S2048x128
  natLt_1_32 : 1 < 32
  reduces_S2048x128_S2048 : S2048x128.Reduces [1] S2048
  shapeCasts_S2048_S2048x1 : S2048.ShapeCasts S2048x1
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2048x128 : S1x128.Broadcasts S2048x128
  reducesTo_S131072x1_S_d0_1 : S131072x1.ReducesTo [0, 1] S_
  dot_S2048x128_S128x128_S2048x128_1_0_0_1_n_n_wf : DotDims.WF S2048x128 S128x128 S2048x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x128.size a ≤ S131072x128.size a
  hwx0_0 : ∀ i : grid0.Coords, EltTy.bits .f32 = 32 ∨ (Rect.block (s := S131072x128) S2048x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x1.size a ≤ S131072x1.size a
  hwx0_1 : ∀ i : grid0.Coords, EltTy.bits .i32 = 32 ∨ (Rect.block (s := S131072x1) S2048x1.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2048x1.size a ≤ S131072x1.size a
  hwx0_4 : ∀ i : grid0.Coords, EltTy.bits .f32 = 32 ∨ (Rect.block (s := S131072x1) S2048x1.size (cc0_transform_4 i) (hinb0_4 i)).WholeWords (EltTy.packing .f32)

variable [Facts₀]

def dot_S2048x128_S128x128_S2048x128_1_0_0_1_n_n : DotDims S2048x128 S128x128 S2048x128 where
  lhsContracting := [1]
  rhsContracting := [0]
  lhsNonContracting := [0]
  rhsNonContracting := [1]
  lhsBatch := []
  rhsBatch := []
  wf := dot_S2048x128_S128x128_S2048x128_1_0_0_1_n_n_wf

abbrev win0_0 : Pipeline.Window sig grid0 :=
  Pipeline.Window.ofSpec (Memref.whole main_arg0) S2048x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v14) S2048x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v13) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v12) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v15) S2048x1.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S131072x128 : Shape := ⟨2, ![131072, 128]⟩
abbrev S131072 : Shape := ⟨1, ![131072]⟩
abbrev S128x64 : Shape := ⟨2, ![128, 64]⟩
abbrev S128x128 : Shape := ⟨2, ![128, 128]⟩
abbrev S131072x1 : Shape := ⟨2, ![131072, 1]⟩
abbrev S1x128 : Shape := ⟨2, ![1, 128]⟩
abbrev S_ : Shape := ⟨0, ![]⟩
abbrev S128 : Shape := ⟨1, ![128]⟩

abbrev nBuf : Space → Nat
  | .hbm => 65
  | .vmem => 0
  | .smem => 0
  | _ => 0

abbrev bufTy : (tb : Table) → Fin (tcTables nBuf tb) → BufTy
  | .hbm, ⟨0, _⟩ => ⟨S131072x128, .f32⟩
  | .hbm, ⟨1, _⟩ => ⟨S131072, .i32⟩
  | .hbm, ⟨2, _⟩ => ⟨S128x64, .f32⟩
  | .hbm, ⟨3, _⟩ => ⟨S128x64, .f32⟩
  | .hbm, ⟨4, _⟩ => ⟨S128x128, .f32⟩
  | .hbm, ⟨5, _⟩ => ⟨S131072x1, .i32⟩
  | .hbm, ⟨6, _⟩ => ⟨S1x128, .i32⟩
  | .hbm, ⟨7, _⟩ => ⟨S131072x128, .i32⟩
  | .hbm, ⟨8, _⟩ => ⟨S131072x128, .i32⟩
  | .hbm, ⟨9, _⟩ => ⟨S131072x128, .i1⟩
  | .hbm, ⟨10, _⟩ => ⟨S131072x128, .f32⟩
  | .hbm, ⟨11, _⟩ => ⟨S_, .f32⟩
  | .hbm, ⟨12, _⟩ => ⟨S131072, .f32⟩
  | .hbm, ⟨13, _⟩ => ⟨S131072x1, .f32⟩
  | .hbm, ⟨14, _⟩ => ⟨S131072x128, .f32⟩
  | .hbm, ⟨15, _⟩ => ⟨S131072x128, .f32⟩
  | .hbm, ⟨16, _⟩ => ⟨S131072x128, .f32⟩
  | .hbm, ⟨17, _⟩ => ⟨S_, .f32⟩
  | .hbm, ⟨18, _⟩ => ⟨S131072x128, .f32⟩
  | .hbm, ⟨19, _⟩ => ⟨S131072x128, .f32⟩
  | .hbm, ⟨20, _⟩ => ⟨S131072x128, .f32⟩
  | .hbm, ⟨21, _⟩ => ⟨S128x128, .f32⟩
  | .hbm, ⟨22, _⟩ => ⟨S131072x128, .f32⟩
  | .hbm, ⟨23, _⟩ => ⟨S131072x128, .f32⟩
  | .hbm, ⟨24, _⟩ => ⟨S_, .f32⟩
  | .hbm, ⟨25, _⟩ => ⟨S131072x128, .f32⟩
  | .hbm, ⟨26, _⟩ => ⟨S131072x128, .f32⟩
  | .hbm, ⟨27, _⟩ => ⟨S131072x128, .f32⟩
  | .hbm, ⟨28, _⟩ => ⟨S128x64, .f32⟩
  | .hbm, ⟨29, _⟩ => ⟨S_, .f32⟩
  | .hbm, ⟨30, _⟩ => ⟨S128, .f32⟩
  | .hbm, ⟨31, _⟩ => ⟨S128x64, .f32⟩
  | .hbm, ⟨32, _⟩ => ⟨S_, .f32⟩
  | .hbm, ⟨33, _⟩ => ⟨S128, .f32⟩
  | .hbm, ⟨34, _⟩ => ⟨S128, .f32⟩
  | .hbm, ⟨35, _⟩ => ⟨S128x64, .f32⟩
  | .hbm, ⟨36, _⟩ => ⟨S_, .f32⟩
  | .hbm, ⟨37, _⟩ => ⟨S128, .f32⟩
  | .hbm, ⟨38, _⟩ => ⟨S128, .f32⟩
  | .hbm, ⟨39, _⟩ => ⟨S128, .f32⟩
  | .hbm, ⟨40, _⟩ => ⟨S_, .f32⟩
  | .hbm, ⟨41, _⟩ => ⟨S128, .f32⟩
  | .hbm, ⟨42, _⟩ => ⟨S128, .f32⟩
  | .hbm, ⟨43, _⟩ => ⟨S128, .f32⟩
  | .hbm, ⟨44, _⟩ => ⟨S_, .f32⟩
  | .hbm, ⟨45, _⟩ => ⟨S128, .f32⟩
  | .hbm, ⟨46, _⟩ => ⟨S128, .f32⟩
  | .hbm, ⟨47, _⟩ => ⟨S_, .f32⟩
  | .hbm, ⟨48, _⟩ => ⟨S128, .f32⟩
  | .hbm, ⟨49, _⟩ => ⟨S128, .f32⟩
  | .hbm, ⟨50, _⟩ => ⟨S1x128, .f32⟩
  | .hbm, ⟨51, _⟩ => ⟨S1x128, .f32⟩
  | .hbm, ⟨52, _⟩ => ⟨S131072x128, .f32⟩
  | .hbm, ⟨53, _⟩ => ⟨S131072x128, .f32⟩
  | .hbm, ⟨54, _⟩ => ⟨S_, .f32⟩
  | .hbm, ⟨55, _⟩ => ⟨S131072x128, .f32⟩
  | .hbm, ⟨56, _⟩ => ⟨S131072x128, .f32⟩
  | .hbm, ⟨57, _⟩ => ⟨S131072x128, .f32⟩
  | .hbm, ⟨58, _⟩ => ⟨S131072x128, .f32⟩
  | .hbm, ⟨59, _⟩ => ⟨S_, .f32⟩
  | .hbm, ⟨60, _⟩ => ⟨S131072, .f32⟩
  | .hbm, ⟨61, _⟩ => ⟨S_, .f32⟩
  | .hbm, ⟨62, _⟩ => ⟨S_, .f32⟩
  | .hbm, ⟨63, _⟩ => ⟨S_, .f32⟩
  | .hbm, ⟨64, _⟩ => ⟨S_, .f32⟩
  | _, _ => ⟨S131072x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_v0 : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_v0 : Ref sig .tc := ⟨.hbm, 10, rfl⟩
abbrev main_cst : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_cst_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_cst_1 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_cst_2 : Ref sig .tc := ⟨.hbm, 29, rfl⟩
abbrev main_v16 : Ref sig .tc := ⟨.hbm, 30, rfl⟩
abbrev main_call1_v0 : Ref sig .tc := ⟨.hbm, 31, rfl⟩
abbrev main_call1_cst : Ref sig .tc := ⟨.hbm, 32, rfl⟩
abbrev main_call1_v1 : Ref sig .tc := ⟨.hbm, 33, rfl⟩
abbrev main_v17 : Ref sig .tc := ⟨.hbm, 34, rfl⟩
abbrev main_call2_v0 : Ref sig .tc := ⟨.hbm, 35, rfl⟩
abbrev main_call2_cst : Ref sig .tc := ⟨.hbm, 36, rfl⟩
abbrev main_call2_v1 : Ref sig .tc := ⟨.hbm, 37, rfl⟩
abbrev main_v18 : Ref sig .tc := ⟨.hbm, 38, rfl⟩
abbrev main_v19 : Ref sig .tc := ⟨.hbm, 39, rfl⟩
abbrev main_cst_3 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_cst_4 : Ref sig .tc := ⟨.hbm, 44, rfl⟩
abbrev main_v23 : Ref sig .tc := ⟨.hbm, 45, rfl⟩
abbrev main_v24 : Ref sig .tc := ⟨.hbm, 46, rfl⟩
abbrev main_cst_5 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_cst_6 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_cst_7 : Ref sig .tc := ⟨.hbm, 59, rfl⟩
abbrev main_v35 : Ref sig .tc := ⟨.hbm, 60, rfl⟩
abbrev main_cst_8 : Ref sig .tc := ⟨.hbm, 61, rfl⟩
abbrev main_v36 : Ref sig .tc := ⟨.hbm, 62, rfl⟩
abbrev main_cst_9 : Ref sig .tc := ⟨.hbm, 63, rfl⟩
abbrev main_v37 : Ref sig .tc := ⟨.hbm, 64, rfl⟩

abbrev nD : Nat := 1
abbrev τ : Topo := Topo.v7x

variable {F : FTy → Type} [FloatOps F]

class Facts₀ : Prop where
  bcast_S131072_S131072x1_0 : S131072.BroadcastsInDim S131072x1 (![0] : Fin 1 → Fin S131072x1.rank)
  bcast_S131072x1_S131072x128_0_1 : S131072x1.BroadcastsInDim S131072x128 (![0, 1] : Fin 2 → Fin S131072x128.rank)
  bcast_S1x128_S131072x128_0_1 : S1x128.BroadcastsInDim S131072x128 (![0, 1] : Fin 2 → Fin S131072x128.rank)
  reducesTo_S131072x128_S131072_d1 : S131072x128.ReducesTo [1] S131072
  h_S_ : 0 < S_.numel
  bcast_S_S131072x128 : S_.BroadcastsInDim S131072x128 (![] : Fin 0 → Fin S131072x128.rank)
  transposes_S128x128_S128x128_1_0 : S128x128.Transposes [1, 0] S128x128
  reducesTo_S128x64_S128_d1 : S128x64.ReducesTo [1] S128
  bcast_S_S128 : S_.BroadcastsInDim S128 (![] : Fin 0 → Fin S128.rank)
  bcast_S128_S1x128_1 : S128.BroadcastsInDim S1x128 (![1] : Fin 1 → Fin S1x128.rank)
  reducesTo_S131072_S_d0 : S131072.ReducesTo [0] S_
  dot_S131072x128_S128x128_S131072x128_1_0_0_1_n_n_wf : DotDims.WF S131072x128 S128x128 S131072x128 [1] [0] [0] [1] [] []

variable [Facts₀]

def dot_S131072x128_S128x128_S131072x128_1_0_0_1_n_n : DotDims S131072x128 S128x128 S131072x128 where
  lhsContracting := [1]
  rhsContracting := [0]
  lhsNonContracting := [0]
  rhsNonContracting := [1]
  lhsBatch := []
  rhsBatch := []
  wf := dot_S131072x128_S128x128_S131072x128_1_0_0_1_n_n_wf

class Facts : Prop extends Facts₀ where

variable [Facts]
-- ==== Proof.RowLoss.lean ====
/-
  The per-row loss both programs compute, as plain functions on the extended reals.

  For one row of logits `x : Fin 128 → EReal`, its target word `t`, the transposed factor matrix `g` (entry `g k j` is the
  weight class `k` contributes to class `j`) and the per-class factor `p`:
    hot t j      the one-hot indicator of the target at class `j` (1 where the target word is `j`, else 0);
    rowMax x     the row's maximum, folded from −∞;
    ex x j       exp (x j − rowMax x);
    mix x t g j  ∑ k, ((1 − hot t k) · ex x k) · g k j;
    sig x t g j  ex x j / ((mix x t g j + ex x j) + ε);
    term … j     ((− p j) · hot t j) · log (sig x t g j + ε);
    rowLoss      ∑ j, term … j.
  The constants stay as their f32 words read at the extended reals: 1 is `0x3F800000`, ε is `0x358637BD`, −∞ is `0xFF800000`.
  Also here: the indicator read off a sign-extended one-bit word equals the one read off the bit itself, zero minus a value is
  its negation, and a sum over the indices of an `[n, 1]` array of a function of the row coordinate is the same sum over the
  indices of an `[n]` array.
-/
import Idealize.ShloMosaic.PureOps.Ideal
import Idealize.ShloMosaic.PureOps.Ideal.Laws
import Idealize.ShloMosaic.Lib.ValueIdx

noncomputable section

namespace Cert.RowLoss

open Idealize.ShloMosaic Idealize.ShloMosaic.ValueIdx

/-- The one-hot indicator of the target word `t` at class `j`: the comparison bit, read as a natural number. -/
def hot (t : BitVec 32) (j : Fin 128) : EReal := (((IntOp.cmpi .eq t (BitVec.ofNat 32 j.val)).toNat : ℝ) : EReal)

/-- A row's maximum: the fold of `max` from −∞ over the 128 classes. -/
def rowMax (x : Fin 128 → EReal) : EReal := (Finset.univ : Finset (Fin 128)).fold max (Ideal.ofBits .f32 0xFF800000#32) x

/-- The shifted exponential of class `j`. -/
def ex (x : Fin 128 → EReal) (j : Fin 128) : EReal := Ideal.exp (x j - rowMax x)

/-- The off-target exponentials mixed through the factor matrix into class `j`. -/
def mix (x : Fin 128 → EReal) (t : BitVec 32) (g : Fin 128 → Fin 128 → EReal) (j : Fin 128) : EReal :=
  ∑ k : Fin 128, ((Ideal.ofBits .f32 0x3F800000#32 - hot t k) * ex x k) * g k j

/-- The balanced softmax weight of class `j`. -/
def sig (x : Fin 128 → EReal) (t : BitVec 32) (g : Fin 128 → Fin 128 → EReal) (j : Fin 128) : EReal :=
  Ideal.div (ex x j) ((mix x t g j + ex x j) + Ideal.ofBits .f32 0x358637BD#32)

/-- Class `j`'s term of the row's loss. -/
def term (x : Fin 128 → EReal) (t : BitVec 32) (g : Fin 128 → Fin 128 → EReal) (p : Fin 128 → EReal) (j : Fin 128) : EReal :=
  ((-(p j)) * hot t j) * Ideal.log (sig x t g j + Ideal.ofBits .f32 0x358637BD#32)

/-- The row's loss. -/
def rowLoss (x : Fin 128 → EReal) (t : BitVec 32) (g : Fin 128 → Fin 128 → EReal) (p : Fin 128 → EReal) : EReal :=
  ∑ j : Fin 128, term x t g p j

/-- A one-bit word widened to 32 bits and read as a signed integer is the bit read as a natural number. -/
theorem sitofp_setWidth_bit (b : BitVec 1) :
    (((b.setWidth 32).toInt : ℝ) : EReal) = ((b.toNat : ℝ) : EReal) := by
  have h : b = 0#1 ∨ b = 1#1 := by
    rcases b with ⟨⟨v, hv⟩⟩
    have : v = 0 ∨ v = 1 := by omega
    rcases this with rfl | rfl
    · exact Or.inl rfl
    · exact Or.inr rfl
  rcases h with rfl | rfl <;> simp

/-- Zero, as the f32 word `0x00000000`, minus a value is the value negated. -/
theorem zero_word_sub (a : EReal) : Ideal.ofBits .f32 0x00000000#32 - a = -a := by
  rw [Ideal.ofBits_zero_f32, zero_sub]

/-- The indices of an `[n, 1]` array are those of an `[n]` array: keep the row coordinate. -/
def colEquiv (n : ℕ) : (⟨2, ![n, 1]⟩ : Shape).Idx ≃ (⟨1, ![n]⟩ : Shape).Idx where
  toFun i := ix1 (i 0)
  invFun j := ix2 (j 0) (0 : Fin 1)
  left_inv i := by
    refine (eq_ix2 i).symm ▸ ?_
    show ix2 (i 0) (0 : Fin 1) = ix2 (i 0) (i 1)
    exact congrArg (ix2 (i 0)) (Fin.ext (by have h : (i 1).val < 1 := (i 1).isLt; show 0 = (i 1).val; omega))
  right_inv j := (eq_ix1 j).symm

/-- Summing a function of the row coordinate over the indices of an `[n, 1]` array is summing it over those of an `[n]` array. -/
theorem sum_col_eq_sum_vec {n : ℕ} (R : Fin n → EReal) :
    (∑ i : (⟨2, ![n, 1]⟩ : Shape).Idx, R (i 0)) = ∑ j : (⟨1, ![n]⟩ : Shape).Idx, R (j 0) :=
  Fintype.sum_equiv (colEquiv n) _ _ (fun _ => rfl)

end Cert.RowLoss

end
-- ==== Proof.LibKeepdims.lean ====
/-
  The column forms a `jnp.sum(…, axis=1, keepdims=True)` kernel meets, read at an index, for any extents:
  a vector `[a]` viewed as a column `[a, 1]`; a column `[a, 1]` broadcast along its rows to `[a, b]`; and, at the
  extended reals, a lane sum of an `[a, b]` array over its second axis as the plain sum over the row.
-/
import Idealize.ShloMosaic.Lib.Pipeline.Value
import Idealize.ShloMosaic.Lib.ValueIdx
import Idealize.ShloMosaic.PureOps.Ideal.Laws

noncomputable section

namespace Idealize.ShloMosaic.Keepdims

open Idealize.ShloMosaic Idealize.ShloMosaic.ValueIdx

variable {α : Type}

/-- An `[a]` array cast to the column `[a, 1]` reads, at `(r, u)`, the operand at `r`, whatever the unit coordinate. -/
theorem shapeCast_a_a1_apply {a : ℕ} (x : (⟨1, ![a]⟩ : Shape).Idx → α) (h : (⟨1, ![a]⟩ : Shape).ShapeCasts ⟨2, ![a, 1]⟩)
    (r : Fin a) (u : Fin 1) : shapeCast ⟨2, ![a, 1]⟩ x h (ix2 r u) = x (ix1 r) :=
  shapeCast_apply x h _ _ (by
    have hu : u.val = 0 := by omega
    rw [Shape.rowMajor_val_two, Shape.rowMajor_val_one]
    show r.val = r.val * 1 + u.val
    rw [hu, Nat.mul_one, Nat.add_zero])

/-- A column `[a, 1]` broadcast to `[a, b]` reads, at `(r, c)`, the column at row `r`. -/
theorem broadcastTo_a1_ab_apply {a b : ℕ} (v : (⟨2, ![a, 1]⟩ : Shape).Idx → α) (h : (⟨2, ![a, 1]⟩ : Shape).Broadcasts ⟨2, ![a, b]⟩)
    (r : Fin a) (c : Fin b) : broadcastTo ⟨2, ![a, b]⟩ v h (ix2 r c) = v (ix2 r (0 : Fin 1)) := by
  refine broadcastTo_apply v h (ix2 r c) (ix2 r (0 : Fin 1)) fun ax => ?_
  match ax with
  | ⟨0, _⟩ =>
    show r.val = if a = 1 then 0 else r.val
    split
    · have := r.isLt; omega
    · rfl
  | ⟨1, _⟩ => rfl

/-- At the extended reals a lane sum of an `[a, b]` array over its second axis, from the zero accumulator, reads at row
    `r` as the sum of the row. -/
theorem laneSum_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (r : Fin a) :
    multiReduction .add [1] ⟨1, ![a]⟩ src acc h hφ hacc (ix1 r) = ∑ k : Fin b, src (ix2 r k) := by
  refine (Ideal.multiReduction_add_single src acc h hφ hacc (ix1 r)).trans ?_
  refine Finset.sum_congr rfl fun k _ => ?_
  refine congrArg src (funext fun ax => Fin.ext ?_)
  rw [Shape.Reduces.lift_val]
  match ax with
  | ⟨0, _⟩ => rfl
  | ⟨1, _⟩ => rfl

end Idealize.ShloMosaic.Keepdims

end
-- ==== Proof.KernelRow.lean ====
/-
  The kernel body's payload read at one row.

  The body computes, from a [2048,128] block of logits, the [2048,1] column of their targets, the [128,128] transposed
  factor matrix and the [1,128] per-class factor row, a [2048,1] column of losses. Read at row `r` it is the per-row loss
  of `Cert.RowLoss` at the row's logits, the row's target word, the matrix and the factor row. The proof names the
  intermediate blocks (the one-hot block, the shifted exponentials, the mixed off-target exponentials, the negated factor
  row spread over the rows), reads each at an index, and folds the results into the row loss's definitions.
-/
import proofs.«140857_j53996328846078_1_alg».proof.Proof.Gen.KernelIdeal.Skeleton
import proofs.«140857_j53996328846078_1_alg».proof.Proof.RowLoss
import proofs.«140857_j53996328846078_1_alg».proof.Proof.LibKeepdims
import Idealize.ShloMosaic.Lib.Pipeline.Value
import Idealize.ShloMosaic.Lib.ValueIdx
import Idealize.ShloMosaic.PureOps.Ideal.Laws

noncomputable section

namespace Cert.KernelIdeal.Hand

open Idealize.ShloMosaic Idealize.ShloMosaic.ValueIdx Cert.KernelIdeal Cert.KernelIdeal.Gen

/-! ## The one-hot block -/

/-- The one-hot block: the comparison of the targets column, spread over the classes, with the class index, widened and
    converted to a float. -/
def hotV (x1 : Vec Ideal S2048x1 .i32) : FVec Ideal S2048x128 .f32 :=
  sitofp .f32 (extui 32 (cmpi .eq
    (broadcastTo S2048x128 (shapeCast S2048x1 x1 shapeCasts_S2048x1_S2048x1) broadcasts_S2048x1_S2048x128)
    (iota .tc S2048x128 32 [1] iota_S2048x128_d1_w32)) natLt_1_32)

/-- At `(r, j)` the one-hot block is the indicator of row `r`'s target at class `j`. -/
theorem hotV_apply (x1 : Vec Ideal S2048x1 .i32) (r : Fin 2048) (j : Fin 128) :
    hotV x1 (ix2 r j) = Cert.RowLoss.hot (x1 (ix2 r (0 : Fin 1))) j := by
  show ((((IntOp.cmpi .eq
      (broadcastTo S2048x128 (shapeCast S2048x1 x1 shapeCasts_S2048x1_S2048x1) broadcasts_S2048x1_S2048x128 (ix2 r j))
      (iota .tc S2048x128 32 [1] iota_S2048x128_d1_w32 (ix2 r j))).setWidth 32).toInt : ℝ) : EReal) = _
  rw [Cert.RowLoss.sitofp_setWidth_bit, iota_single_apply, Keepdims.broadcastTo_a1_ab_apply, shapeCast_self]
  rfl

/-! ## The shifted exponentials -/

/-- The reduced index `r` with class `k` put back on the second axis is `(r, k)`. -/
theorem lift_row (r : Fin 2048) (k : Fin (S2048x128.size 1)) :
    reduces_S2048x128_S2048.lift (ix1 r) k = ix2 r (⟨k.val, k.isLt⟩ : Fin 128) := by
  funext ax
  refine Fin.ext ?_
  rw [Shape.Reduces.lift_val]
  match ax with
  | ⟨0, _⟩ => rfl
  | ⟨1, _⟩ => rfl

/-- The row maxima, as a column spread over the classes. -/
def maxV (x0 : FVec Ideal S2048x128 .f32) : FVec Ideal S2048x128 .f32 :=
  broadcastTo S2048x128 (shapeCast S2048x1
    (multiReduction .maximumf [1] S2048 x0 0xFF800000#32 reduces_S2048x128_S2048 (.inl rfl) rfl)
    shapeCasts_S2048_S2048x1) broadcasts_S2048x1_S2048x128

/-- At `(r, j)` it is row `r`'s maximum. -/
theorem maxV_apply (x0 : FVec Ideal S2048x128 .f32) (r : Fin 2048) (j : Fin 128) :
    maxV x0 (ix2 r j) = Cert.RowLoss.rowMax (fun k => x0 (ix2 r k)) := by
  unfold maxV
  rw [Keepdims.broadcastTo_a1_ab_apply, Keepdims.shapeCast_a_a1_apply]
  refine (Ideal.multiReduction_maximumf_single x0 _ reduces_S2048x128_S2048 (.inl rfl) rfl (ix1 r)).trans ?_
  show (Finset.univ : Finset (Fin 128)).fold max (Ideal.ofBits .f32 0xFF800000#32)
      (fun k : Fin 128 => x0 (reduces_S2048x128_S2048.lift (ix1 r) k)) = _
  unfold Cert.RowLoss.rowMax
  exact congrArg (fun f => Finset.fold max (Ideal.ofBits .f32 0xFF800000#32) f (Finset.univ : Finset (Fin 128)))
    (funext fun k => congrArg x0 (lift_row r k))

/-- The shifted exponentials: `exp` of the logits minus their row's maximum. -/
def exV (x0 : FVec Ideal S2048x128 .f32) : FVec Ideal S2048x128 .f32 := exp (subf x0 (maxV x0))

/-- At `(r, j)` it is row `r`'s shifted exponential of class `j`. -/
theorem exV_apply (x0 : FVec Ideal S2048x128 .f32) (r : Fin 2048) (j : Fin 128) :
    exV x0 (ix2 r j) = Cert.RowLoss.ex (fun k => x0 (ix2 r k)) j := by
  show Ideal.exp (x0 (ix2 r j) - maxV x0 (ix2 r j)) = _
  rw [maxV_apply]
  rfl

/-! ## The mixed off-target exponentials -/

/-- The product's left operand index keeps the output row … -/
theorem lhs_dot_0 (i : S2048x128.Idx) (q : dot_S2048x128_S128x128_S2048x128_1_0_0_1_n_n.contr.Idx) :
    (dot_S2048x128_S128x128_S2048x128_1_0_0_1_n_n.lhsIdx i q 0).val = (i 0).val := by
  unfold DotDims.lhsIdx
  rw [dif_neg (show ¬(0 : Fin S2048x128.rank) ∈ dot_S2048x128_S128x128_S2048x128_1_0_0_1_n_n.lhsBatch by decide),
    dif_pos (show (0 : Fin S2048x128.rank) ∈ dot_S2048x128_S128x128_S2048x128_1_0_0_1_n_n.lhsNonContracting by decide)]
  rfl
/-- … and takes the contraction coordinate on its second axis; -/
theorem lhs_dot_1 (i : S2048x128.Idx) (q : dot_S2048x128_S128x128_S2048x128_1_0_0_1_n_n.contr.Idx) :
    (dot_S2048x128_S128x128_S2048x128_1_0_0_1_n_n.lhsIdx i q 1).val = (q ⟨0, by decide⟩).val :=
  dot_S2048x128_S128x128_S2048x128_1_0_0_1_n_n.lhsIdx_val_of_single rfl i q
/-- the right operand index takes the contraction coordinate on its first axis … -/
theorem rhs_dot_0 (i : S2048x128.Idx) (q : dot_S2048x128_S128x128_S2048x128_1_0_0_1_n_n.contr.Idx) :
    (dot_S2048x128_S128x128_S2048x128_1_0_0_1_n_n.rhsIdx i q 0).val = (q ⟨0, by decide⟩).val :=
  dot_S2048x128_S128x128_S2048x128_1_0_0_1_n_n.rhsIdx_val_of_single rfl i q
/-- … and keeps the output column. -/
theorem rhs_dot_1 (i : S2048x128.Idx) (q : dot_S2048x128_S128x128_S2048x128_1_0_0_1_n_n.contr.Idx) :
    (dot_S2048x128_S128x128_S2048x128_1_0_0_1_n_n.rhsIdx i q 1).val = (i 1).val := by
  unfold DotDims.rhsIdx
  rw [dif_neg (show ¬(1 : Fin S128x128.rank) ∈ dot_S2048x128_S128x128_S2048x128_1_0_0_1_n_n.rhsBatch by decide),
    dif_pos (show (1 : Fin S128x128.rank) ∈ dot_S2048x128_S128x128_S2048x128_1_0_0_1_n_n.rhsNonContracting by decide)]
  rfl

/-- The matrix product into the zero accumulator, at `(r, j)`: the sum over the 128 contracted classes. -/
theorem matmul_row (lhs : FVec Ideal S2048x128 .bf16) (rhs : FVec Ideal S128x128 .bf16) (r : Fin 2048) (j : Fin 128) :
    matmul dot_S2048x128_S128x128_S2048x128_1_0_0_1_n_n none lhs rhs (constant S2048x128 .f32 0x00000000#32) (ix2 r j)
      = ∑ k : Fin 128, lhs (ix2 r k) * rhs (ix2 k j) := by
  refine (Ideal.matmul_constant_zero_apply dot_S2048x128_S128x128_S2048x128_1_0_0_1_n_n none lhs rhs (ix2 r j)).trans ?_
  refine (Equiv.sum_comp (contrEquiv1 dot_S2048x128_S128x128_S2048x128_1_0_0_1_n_n 128 rfl rfl).symm _).symm.trans ?_
  refine Finset.sum_congr rfl fun k _ => ?_
  have hk := contrEquiv1_symm_val dot_S2048x128_S128x128_S2048x128_1_0_0_1_n_n 128 rfl rfl k
  have el : dot_S2048x128_S128x128_S2048x128_1_0_0_1_n_n.lhsIdx (ix2 r j) ((contrEquiv1 dot_S2048x128_S128x128_S2048x128_1_0_0_1_n_n 128 rfl rfl).symm k) = ix2 r k :=
    funext fun a => Fin.ext (by
      match a with
      | ⟨0, _⟩ => exact lhs_dot_0 _ _
      | ⟨1, _⟩ => exact (lhs_dot_1 _ _).trans hk)
  have er : dot_S2048x128_S128x128_S2048x128_1_0_0_1_n_n.rhsIdx (ix2 r j) ((contrEquiv1 dot_S2048x128_S128x128_S2048x128_1_0_0_1_n_n 128 rfl rfl).symm k) = ix2 k j :=
    funext fun a => Fin.ext (by
      match a with
      | ⟨0, _⟩ => exact (rhs_dot_0 _ _).trans hk
      | ⟨1, _⟩ => exact rhs_dot_1 _ _)
  rw [el, er]

/-- The off-target exponentials mixed through the factor matrix: the product of `(1 − one-hot) · exp` with the matrix,
    both operands passed through the narrowing format change, into the zero accumulator. -/
def mixV (x0 : FVec Ideal S2048x128 .f32) (x1 : Vec Ideal S2048x1 .i32) (x2 : FVec Ideal S128x128 .f32) :
    FVec Ideal S2048x128 .f32 :=
  matmul dot_S2048x128_S128x128_S2048x128_1_0_0_1_n_n none
    (truncf .bf16 (mulf (subf (broadcast S2048x128 (Scalar.ofBits .f32 0x3F800000#32)) (hotV x1)) (exV x0)) bitsLt_bf16_f32)
    (truncf .bf16 (shapeCast S128x128 x2 shapeCasts_S128x128_S128x128) bitsLt_bf16_f32)
    (constant S2048x128 .f32 0x00000000#32)

/-- At `(r, j)` it is row `r`'s mixed sum into class `j`. -/
theorem mixV_apply (x0 : FVec Ideal S2048x128 .f32) (x1 : Vec Ideal S2048x1 .i32) (x2 : FVec Ideal S128x128 .f32)
    (r : Fin 2048) (j : Fin 128) :
    mixV x0 x1 x2 (ix2 r j)
      = Cert.RowLoss.mix (fun k => x0 (ix2 r k)) (x1 (ix2 r (0 : Fin 1))) (fun k c => x2 (ix2 k c)) j := by
  unfold mixV
  refine (matmul_row _ _ r j).trans ?_
  unfold Cert.RowLoss.mix
  refine Finset.sum_congr rfl fun k _ => ?_
  show ((Ideal.ofBits .f32 0x3F800000#32 - hotV x1 (ix2 r k)) * exV x0 (ix2 r k))
      * shapeCast S128x128 x2 shapeCasts_S128x128_S128x128 (ix2 k j) = _
  rw [hotV_apply, exV_apply, shapeCast_self]

/-! ## The negated factor row -/

/-- Zero minus the factor row, spread over the rows. -/
def negV (x3 : FVec Ideal S1x128 .f32) : FVec Ideal S2048x128 .f32 :=
  broadcastTo S2048x128
    (subf (broadcast S1x128 (Scalar.ofBits .f32 0x00000000#32)) (shapeCast S1x128 x3 shapeCasts_S1x128_S1x128))
    broadcasts_S1x128_S2048x128

/-- At `(r, j)` it is class `j`'s factor negated. -/
theorem negV_apply (x3 : FVec Ideal S1x128 .f32) (r : Fin 2048) (j : Fin 128) :
    negV x3 (ix2 r j) = -(x3 (ix2 (0 : Fin 1) j)) := by
  unfold negV
  refine (broadcastTo_apply _ broadcasts_S1x128_S2048x128 (ix2 r j) (ix2 (0 : Fin 1) j) fun ax => ?_).trans ?_
  · match ax with
    | ⟨0, _⟩ => rfl
    | ⟨1, _⟩ => rfl
  · show Ideal.ofBits .f32 0x00000000#32 - shapeCast S1x128 x3 shapeCasts_S1x128_S1x128 (ix2 (0 : Fin 1) j) = _
    rw [shapeCast_self, Cert.RowLoss.zero_word_sub]

/-! ## The payload -/

/-- The payload over the named blocks: the lane sum, viewed as a column, of
    `(negated factor · one-hot) · log (exp / ((mix + exp) + ε) + ε)`. -/
theorem pay_eq (x0 : Vec Ideal S2048x128 .f32) (x1 : Vec Ideal S2048x1 .i32) (x2 : Vec Ideal S128x128 .f32)
    (x3 : Vec Ideal S1x128 .f32) :
    k0_pay1 (F := Ideal) x0 x1 x2 x3
      = shapeCast S2048x1
          (multiReduction .add [1] S2048
            (mulf (mulf (negV x3) (hotV x1))
              (log (addf
                (divf (exV x0)
                  (addf (addf (mixV x0 x1 x2) (exV x0)) (broadcast S2048x128 (Scalar.ofBits .f32 0x358637BD#32))))
                (broadcast S2048x128 (Scalar.ofBits .f32 0x358637BD#32)))))
            0x00000000#32 reduces_S2048x128_S2048 (.inl rfl) rfl)
          shapeCasts_S2048_S2048x1 := rfl

/-- THE PAYLOAD AT ROW `r`: the per-row loss of the row's logits, the row's target word, the factor matrix and the
    factor row. -/
theorem pay_apply (x0 : Vec Ideal S2048x128 .f32) (x1 : Vec Ideal S2048x1 .i32) (x2 : Vec Ideal S128x128 .f32)
    (x3 : Vec Ideal S1x128 .f32) (r : Fin 2048) (u : Fin 1) :
    k0_pay1 (F := Ideal) x0 x1 x2 x3 (ix2 r u)
      = Cert.RowLoss.rowLoss (fun j => x0 (ix2 r j)) (x1 (ix2 r (0 : Fin 1))) (fun k j => x2 (ix2 k j))
          (fun j => x3 (ix2 (0 : Fin 1) j)) := by
  rw [pay_eq]
  refine (Keepdims.shapeCast_a_a1_apply _ shapeCasts_S2048_S2048x1 r u).trans ?_
  refine (Keepdims.laneSum_apply _ _ reduces_S2048x128_S2048 (.inl rfl) rfl r).trans ?_
  unfold Cert.RowLoss.rowLoss
  refine Finset.sum_congr rfl fun j _ => ?_
  show (negV x3 (ix2 r j) * hotV x1 (ix2 r j))
      * Ideal.log (Ideal.div (exV x0 (ix2 r j))
          ((mixV x0 x1 x2 (ix2 r j) + exV x0 (ix2 r j)) + Ideal.ofBits .f32 0x358637BD#32)
        + Ideal.ofBits .f32 0x358637BD#32) = _
  rw [negV_apply, hotV_apply, exV_apply, mixV_apply]
  rfl

end Cert.KernelIdeal.Hand

end
-- ==== Proof.KernelArray.lean ====
/-
  The kernel program's run, read: what its result buffer holds after every execution.

  The region runs over 64 points; point `t` stages rows `2048 t … 2048 t + 2047` of the logits and of the targets column, the
  whole transposed factor matrix and the whole per-class factor row, and writes back rows `2048 t … 2048 t + 2047` of a
  `[131072, 1]` column. By the payload read at a row (`Hand.pay_apply`) the block written back is the block of the column
  whose row `b` is the row loss of row `b` of the arrays the region finds; the 64 blocks cover the column, so the column
  ends at that function. The arrays the region finds are host operations of the arguments: the targets viewed as a column,
  the factor matrix transposed, and the per-class factor (the same host operations as the reference's) viewed as a row.
  The host operations after the region sum the column from the zero word and divide by the row count.
-/
import proofs.«140857_j53996328846078_1_alg».proof.Proof.Gen.KernelIdeal.Frame
import proofs.«140857_j53996328846078_1_alg».proof.Proof.Gen.ReferenceIdeal.Read
import proofs.«140857_j53996328846078_1_alg».proof.Proof.RowLoss
import proofs.«140857_j53996328846078_1_alg».proof.Proof.KernelRow
import Idealize.ShloMosaic.Lib.Pipeline.Value
import Idealize.ShloMosaic.Lib.ValueIdx
import Idealize.ShloMosaic.Lib.StableHlo.Run
import Idealize.ShloMosaic.Lib.Tactic
import Idealize.ShloMosaic.PureOps.Ideal.Laws

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Arr

open Cert.KernelIdeal Cert.KernelIdeal.Gen

variable (m : (ℓ : Loc nD τ sig) → Buf (Elt Ideal) ℓ) (ρ : Dev nD → PrngReg)

/-! ## The arrays the region finds, and the blocks of a point, at their literal types -/

/-- The logits as the region finds them. -/
abbrev xarr (c : Dev nD) : Vec Ideal S131072x128 .f32 := V m c main_arg0
/-- The targets as a column. -/
abbrev tarr (c : Dev nD) : Vec Ideal S131072x1 .i32 := V m c main_v14
/-- The transposed factor matrix. -/
abbrev garr (c : Dev nD) : Vec Ideal S128x128 .f32 := V m c main_v13
/-- The per-class factor as a row. -/
abbrev parr (c : Dev nD) : Vec Ideal S1x128 .f32 := V m c main_v12

abbrev xblk (c : Dev nD) (t : Fin cfg0.N) : Vec Ideal S2048x128 .f32 := iblk m c 0 t
abbrev tblk (c : Dev nD) (t : Fin cfg0.N) : Vec Ideal S2048x1 .i32 := iblk m c 1 t
abbrev gblk (c : Dev nD) (t : Fin cfg0.N) : Vec Ideal S128x128 .f32 := iblk m c 2 t
abbrev pblk (c : Dev nD) (t : Fin cfg0.N) : Vec Ideal S1x128 .f32 := iblk m c 3 t

/-- The printed index maps over the grid: the row-blocked windows sit at block row `t`, the resident ones at block 0. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

theorem tlt (t : Fin cfg0.N) : t.val < 64 := lt_of_lt_of_eq t.isLt N_0

/-- Row `r` of the logits block of point `t` is row `2048 t + r` of the logits. -/
theorem xblk_apply (c : Dev nD) (t : Fin cfg0.N) (r : Fin 2048) (j : Fin 128) (b : Fin 131072) (hb : b.val = 2048 * t.val + r.val) :
    xblk m c t (ix2 r j) = xarr m c (ix2 b j) := by
  obtain ⟨e0, e1, -⟩ := idx_facts t
  show iblk m c 0 t (ix2 r j) = _
  unfold iblk
  rw [View.read_apply]
  show V m c main_arg0 _ = V m c main_arg0 _
  congr 1
  funext a
  apply Fin.ext
  match a with
  | ⟨0, _⟩ => show win0_0.index t 0 * 2048 + 1 * r.val = b.val; rw [e0, hb]; omega
  | ⟨1, _⟩ => show win0_0.index t 1 * 128 + 1 * j.val = j.val; rw [e1]; omega

/-- Row `r` of the targets block of point `t` is row `2048 t + r` of the targets column. -/
theorem tblk_apply (c : Dev nD) (t : Fin cfg0.N) (r : Fin 2048) (u : Fin 1) (b : Fin 131072) (hb : b.val = 2048 * t.val + r.val) :
    tblk m c t (ix2 r u) = tarr m c (ix2 b u) := by
  obtain ⟨-, -, e0, e1, -⟩ := idx_facts t
  show iblk m c 1 t (ix2 r u) = _
  unfold iblk
  rw [View.read_apply]
  show V m c main_v14 _ = V m c main_v14 _
  congr 1
  funext a
  apply Fin.ext
  match a with
  | ⟨0, _⟩ => show win0_1.index t 0 * 2048 + 1 * r.val = b.val; rw [e0, hb]; omega
  | ⟨1, _⟩ => show win0_1.index t 1 * 1 + 1 * u.val = u.val; rw [e1]; omega

/-- The factor-matrix block of every point is the whole matrix. -/
theorem gblk_apply (c : Dev nD) (t : Fin cfg0.N) (k j : Fin 128) : gblk m c t (ix2 k j) = garr m c (ix2 k j) := by
  obtain ⟨-, -, -, -, e0, e1, -⟩ := idx_facts t
  show iblk m c 2 t (ix2 k j) = _
  unfold iblk
  rw [View.read_apply]
  show V m c main_v13 _ = V m c main_v13 _
  congr 1
  funext a
  apply Fin.ext
  match a with
  | ⟨0, _⟩ => show win0_2.index t 0 * 128 + 1 * k.val = k.val; rw [e0]; omega
  | ⟨1, _⟩ => show win0_2.index t 1 * 128 + 1 * j.val = j.val; rw [e1]; omega

/-- The per-class factor block of every point is the whole row. -/
theorem pblk_apply (c : Dev nD) (t : Fin cfg0.N) (u : Fin 1) (j : Fin 128) : pblk m c t (ix2 u j) = parr m c (ix2 u j) := by
  obtain ⟨-, -, -, -, -, -, e0, e1, -⟩ := idx_facts t
  show iblk m c 3 t (ix2 u j) = _
  unfold iblk
  rw [View.read_apply]
  show V m c main_v12 _ = V m c main_v12 _
  congr 1
  funext a
  apply Fin.ext
  match a with
  | ⟨0, _⟩ => show win0_3.index t 0 * 1 + 1 * u.val = u.val; rw [e0]; omega
  | ⟨1, _⟩ => show win0_3.index t 1 * 128 + 1 * j.val = j.val; rw [e1]; omega

/-! ## The host operations before the region, read at an index -/

/-- The targets column the region finds is the targets vector viewed `[131072, 1]`. -/
theorem tarr_apply (c : Dev nD) (b : Fin 131072) (u : Fin 1) :
    tarr m c (ix2 b u) = (m ((c : Thread nD τ).loc main_arg1) : S131072.Idx → BitVec 32) (ix1 b) := by
  have e : V m c main_v14 = fun i => shapeCast S131072x1 (m ((c : Thread nD τ).loc main_arg1) : S131072.Idx → BitVec 32) shapeCasts_S131072_S131072x1 i := by
    dsimp only [Gen.V, Gen.V0]
    simp only [Gen.hostOps0, Gen.hostOps0_1, Gen.hostOps0_2, Gen.hostOps0_3, List.flatten_cons, List.flatten_nil, List.append_nil, List.cons_append, List.nil_append]
    after_results
    rfl
  show V m c main_v14 (ix2 b u) = _
  rw [e]
  refine shapeCast_apply _ shapeCasts_S131072_S131072x1 (ix2 b u) (ix1 b) ?_
  have hu : u.val = 0 := by omega
  rw [Shape.rowMajor_val_two, Shape.rowMajor_val_one]
  show b.val = b.val * 1 + u.val
  omega

/-- The matrix the region finds is the factor matrix transposed. -/
theorem garr_apply (c : Dev nD) (k j : Fin 128) :
    garr m c (ix2 k j) = (m ((c : Thread nD τ).loc main_arg4) : S128x128.Idx → EReal) (ix2 j k) := by
  have e : V m c main_v13 = transpose S128x128 [1, 0] (m ((c : Thread nD τ).loc main_arg4) : S128x128.Idx → EReal) transposes_S128x128_S128x128_1_0 := by
    dsimp only [Gen.V, Gen.V0]
    simp only [Gen.hostOps0, Gen.hostOps0_1, Gen.hostOps0_2, Gen.hostOps0_3, List.flatten_cons, List.flatten_nil, List.append_nil, List.cons_append, List.nil_append]
    after_results
  show V m c main_v13 (ix2 k j) = _
  rw [e]
  exact transpose_apply [1, 0] _ transposes_S128x128_S128x128_1_0 (ix2 k j) (ix2 j k) (fun b => match b with
    | ⟨0, _⟩ => rfl
    | ⟨1, _⟩ => rfl)

/-- The per-class factor row the region finds is the reference's per-class factor of the two prototype arrays, viewed `[1, 128]`:
    both programs compute it by the same host operations. -/
theorem parr_apply (c : Dev nD) (u : Fin 1) (j : Fin 128) :
    parr m c (ix2 u j)
      = Cert.ReferenceIdeal.Read.val_main_v26 (F := Ideal)
          (m ((c : Thread nD τ).loc main_arg2) : S128x64.Idx → EReal) (m ((c : Thread nD τ).loc main_arg3) : S128x64.Idx → EReal) (ix1 j) := by
  have e : V m c main_v12 = fun i => shapeCast S1x128 (Cert.ReferenceIdeal.Read.val_main_v26 (F := Ideal)
      (m ((c : Thread nD τ).loc main_arg2) : S128x64.Idx → EReal) (m ((c : Thread nD τ).loc main_arg3) : S128x64.Idx → EReal)) shapeCasts_S128_S1x128 i := by
    dsimp only [Gen.V, Gen.V0]
    simp only [Gen.hostOps0, Gen.hostOps0_1, Gen.hostOps0_2, Gen.hostOps0_3, List.flatten_cons, List.flatten_nil, List.append_nil, List.cons_append, List.nil_append]
    after_results
    rfl
  show V m c main_v12 (ix2 u j) = _
  rw [e]
  refine shapeCast_apply _ shapeCasts_S128_S1x128 (ix2 u j) (ix1 j) ?_
  have hu : u.val = 0 := by omega
  rw [Shape.rowMajor_val_two, Shape.rowMajor_val_one]
  show j.val = u.val * 128 + j.val
  omega

/-! ## The losses column the region leaves -/

/-- Row `b`'s loss, from the arrays the region finds. -/
def rowOf (c : Dev nD) (b : Fin 131072) : EReal :=
  Cert.RowLoss.rowLoss (fun j => xarr m c (ix2 b j)) (tarr m c (ix2 b (0 : Fin 1))) (fun k j => garr m c (ix2 k j))
    (fun j => parr m c (ix2 (0 : Fin 1) j))

/-- The column of the rows' losses. -/
def lossCol (c : Dev nD) : FVec Ideal S131072x1 .f32 := fun i => rowOf m c (i 0)

theorem hz : (![0, 0] : Fin 2 → Nat) = fun _ => 0 := funext fun a => by fin_cases a <;> rfl

/-- What point `t` writes back is block `t` of the losses column: rows `2048 t … 2048 t + 2047`. -/
theorem flushed_eq (c : Dev nD) (t : Fin cfg0.N) :
    (dats m 0 c).flushed 4 t = ((cfg0.win 4).blk t).view.read (Elt Ideal) (lossCol m c) := by
  show (cfg0.win 4).cut (grid0.coords t) ((dats m 0 c).after 4 t) = _
  rw [after0_4]
  unfold out0_4
  rw [View.canon_unit_zero hz]
  simp only [View.ld_unit_zero (S := S2048x128) hz, View.ld_unit_zero (S := S2048x1) hz, View.ld_unit_zero (S := S128x128) hz,
    View.ld_unit_zero (S := S1x128) hz]
  refine funext fun (y : S2048x1.Idx) => ?_
  obtain ⟨r, u, rfl⟩ : ∃ (r : Fin 2048) (u : Fin 1), y = ix2 r u := ⟨y 0, y 1, eq_ix2 y⟩
  obtain ⟨-, -, -, -, -, -, -, -, e0, e1⟩ := idx_facts t
  have ht := tlt t
  have hr := r.isLt
  have hb : 2048 * t.val + r.val < 131072 := by omega
  have hrow : (((cfg0.win 4).blk t).view.emb (ix2 r u)) = ix2 (⟨2048 * t.val + r.val, hb⟩ : Fin 131072) u := by
    funext a; apply Fin.ext
    match a with
    | ⟨0, _⟩ => show win0_4.index t 0 * 2048 + 1 * r.val = 2048 * t.val + r.val; rw [e0]; omega
    | ⟨1, _⟩ => show win0_4.index t 1 * 1 + 1 * u.val = u.val; rw [e1]; omega
  have hx : (fun j => xblk m c t (ix2 r j)) = fun j => xarr m c (ix2 (⟨2048 * t.val + r.val, hb⟩ : Fin 131072) j) :=
    funext fun j => xblk_apply m c t r j _ rfl
  have htg : tblk m c t (ix2 r (0 : Fin 1)) = tarr m c (ix2 (⟨2048 * t.val + r.val, hb⟩ : Fin 131072) (0 : Fin 1)) :=
    tblk_apply m c t r 0 _ rfl
  have hg : (fun k j => gblk m c t (ix2 k j)) = fun k j => garr m c (ix2 k j) :=
    funext fun k => funext fun j => gblk_apply m c t k j
  have hp : (fun j => pblk m c t (ix2 (0 : Fin 1) j)) = fun j => parr m c (ix2 (0 : Fin 1) j) :=
    funext fun j => pblk_apply m c t 0 j
  show k0_pay1 (xblk m c t) (tblk m c t) (gblk m c t) (pblk m c t) (ix2 r u) = lossCol m c (((cfg0.win 4).blk t).view.emb (ix2 r u))
  rw [hrow]
  refine (Cert.KernelIdeal.Hand.pay_apply (xblk m c t) (tblk m c t) (gblk m c t) (pblk m c t) r u).trans ?_
  rw [hx, htg, hg, hp]
  rfl

/-- An index of the column is in point `t`'s block iff each coordinate is in the block's range on its axis. -/
theorem mem_blk (t : Fin cfg0.N) (i : S131072x1.Idx) :
    i ∈ ((cfg0.win 4).blk t).view.set ↔ ∀ a : Fin 2, win0_4.index t a * S2048x1.size a ≤ (i a).val ∧ (i a).val < win0_4.index t a * S2048x1.size a + S2048x1.size a := by
  show i ∈ ((View.whole main_v15).slice (win0_4.rect t)).set ↔ _
  rw [View.set_slice_whole, Rect.mem_set_unit]
  exact Iff.rfl

/-- Row `b` of the column is in the block of point `b / 2048`: the blocks cover the column. -/
theorem cover (i : S131072x1.Idx) : ∃ t : Fin cfg0.N, (cfg0.win 4).flush t = true ∧ i ∈ ((cfg0.win 4).blk t).view.set := by
  have hi0 : (i 0).val < 131072 := (i 0).isLt
  have hi1 : (i 1).val < 1 := (i 1).isLt
  have ht : (i 0).val / 2048 < cfg0.N := lt_of_lt_of_eq (by omega : (i 0).val / 2048 < 64) N_0.symm
  obtain ⟨-, -, -, -, -, -, -, -, e0, e1⟩ := idx_facts ⟨(i 0).val / 2048, ht⟩
  refine ⟨⟨(i 0).val / 2048, ht⟩, flush0_4 _, ?_⟩
  rw [mem_blk]
  intro a
  match a with
  | ⟨0, _⟩ =>
    show win0_4.index ⟨(i 0).val / 2048, ht⟩ 0 * 2048 ≤ (i 0).val ∧ (i 0).val < win0_4.index ⟨(i 0).val / 2048, ht⟩ 0 * 2048 + 2048
    rw [e0]; show (i 0).val / 2048 * 2048 ≤ (i 0).val ∧ (i 0).val < (i 0).val / 2048 * 2048 + 2048; omega
  | ⟨1, _⟩ =>
    show win0_4.index ⟨(i 0).val / 2048, ht⟩ 1 * 1 ≤ (i 1).val ∧ (i 1).val < win0_4.index ⟨(i 0).val / 2048, ht⟩ 1 * 1 + 1
    rw [e1]; omega

/-- The result array of the region ends holding the losses column. -/
theorem final (c : Dev nD) : (dats m 0 c).arrAt 4 cfg0.N = lossCol m c :=
  (dats m 0 c).arrAt_eq_of_cover 4 (lossCol m c) (fun t _ => flushed_eq m c t) cover

/-! ## The host operations after the region, and the run -/

/-- Row `b`'s loss in terms of the argument arrays: the logits' row, the row's target, the factor matrix read transposed,
    and the per-class factor of the two prototype arrays. -/
theorem rowOf_eq (c : Dev nD) (b : Fin 131072) :
    rowOf m c b
      = Cert.RowLoss.rowLoss (fun j => (m ((c : Thread nD τ).loc main_arg0) : S131072x128.Idx → EReal) (ix2 b j))
          ((m ((c : Thread nD τ).loc main_arg1) : S131072.Idx → BitVec 32) (ix1 b))
          (fun k j => (m ((c : Thread nD τ).loc main_arg4) : S128x128.Idx → EReal) (ix2 j k))
          (fun j => Cert.ReferenceIdeal.Read.val_main_v26 (F := Ideal)
            (m ((c : Thread nD τ).loc main_arg2) : S128x64.Idx → EReal) (m ((c : Thread nD τ).loc main_arg3) : S128x64.Idx → EReal) (ix1 j)) := by
  have hx : (fun j => xarr m c (ix2 b j)) = fun j => (m ((c : Thread nD τ).loc main_arg0) : S131072x128.Idx → EReal) (ix2 b j) :=
    funext fun j => by show V m c main_arg0 (ix2 b j) = _; rw [V_main_arg0]
  have hg : (fun k j => garr m c (ix2 k j)) = fun k j => (m ((c : Thread nD τ).loc main_arg4) : S128x128.Idx → EReal) (ix2 j k) :=
    funext fun k => funext fun j => garr_apply m c k j
  have hp : (fun j => parr m c (ix2 (0 : Fin 1) j)) = fun j => Cert.ReferenceIdeal.Read.val_main_v26 (F := Ideal)
      (m ((c : Thread nD τ).loc main_arg2) : S128x64.Idx → EReal) (m ((c : Thread nD τ).loc main_arg3) : S128x64.Idx → EReal) (ix1 j) :=
    funext fun j => parr_apply m c 0 j
  unfold rowOf
  rw [hx, tarr_apply m c b 0, hg, hp]

/-- The kernel program's result: the losses column summed from the zero word, over the row count. -/
def result (c : Dev nD) : FVec Ideal S_ .f32 :=
  Host.divf (F := Ideal) (Host.reduceAdd (F := Ideal) (lossCol m c) (constant S_ .f32 0x00000000#32) reducesTo_S131072x1_S_d0_1 h_S_)
    (constant S_ .f32 0x48000000#32)

/-- The host operations after the region leave `result` in the program's result buffer. -/
theorem tail_eq (c : Dev nD) : Pipeline.afterTail₀ cfgs (dats m) 0 (V0 m) [hostOps1] c main_v17 = result m c := by
  unfold Pipeline.afterTail₀
  show StableHlo.after hostOps1 _ (Proc.devRef .tc main_v17) = _
  after_results
  have e : Pipeline.withArrays (cfgs 0).spec c (V0 m c) (fun w => (dats m 0 c).arrAt w (cfgs 0).N) (Proc.devRef .tc main_v15) = lossCol m c :=
    (Pipeline.withArrays_arr spec0 launch0.win.arr_inj c _ _ 4).trans (final m c)
  exact congrArg (fun A : FVec Ideal S131072x1 .f32 => Host.divf (F := Ideal) (Host.reduceAdd (F := Ideal) A (constant S_ .f32 0x00000000#32) reducesTo_S131072x1_S_d0_1 h_S_)
    (constant S_ .f32 0x48000000#32)) e

/-- Every weakly fair execution of the kernel program terminates with its result buffer at `result` and its arguments unchanged. -/
theorem run : θ_run defs (onTc (τ := τ) (main (F := Ideal))) ⟨m, fun _ => 0, ρ⟩ fun r => ∀ c : Dev nD,
      r.2.mem ((c.tc : Thread nD τ).loc main_v17) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c =>
    ⟨((h c).2 main_v17 (Pipeline.mem_restRefs_of main_v17 (by decide) (by decide))).trans (tail_eq m c),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩)
    (run_main m ρ)

end Cert.KernelIdeal.Arr

end
-- ==== Proof.RefRow.lean ====
/-
  The reference's per-row sum, read at one row.

  The reference program computes, for each row `b` of the logits, the sum over the 128 classes of
    ((− p j) · hot j) · log (e_j / ((∑ k, ((1 − hot k) · e_k) · g k j + e_j) + ε) + ε),   e_j = exp (x j − max_j' x j'),
  from the zero word. Read one stage at a time at the index (b, j), every stage is the matching piece of the row loss:
  the comparison of the broadcast target with the class counter is the one-hot indicator; the fold of the maximum from −∞
  along the row is the row's maximum; the contraction against the transposed factor matrix is the mixed sum; and the
  per-class factor, broadcast along the rows, is read at class `j` and stays closed.
-/
import proofs.«140857_j53996328846078_1_alg».proof.Proof.Gen.ReferenceIdeal.Read
import proofs.«140857_j53996328846078_1_alg».proof.Proof.RowLoss
import Idealize.ShloMosaic.Lib.Pipeline.Value
import Idealize.ShloMosaic.Lib.ValueIdx
import Idealize.ShloMosaic.PureOps.Ideal.Laws

noncomputable section

namespace Cert.ReferenceIdeal.Hand

open Idealize.ShloMosaic Idealize.ShloMosaic.ValueIdx Cert.ReferenceIdeal Cert.ReferenceIdeal.Gen Cert.ReferenceIdeal.Read

/-! ## The one-hot indicator at (b, k) -/

/-- The target word, broadcast along the classes, compared with the class counter, read as a natural number: the
    one-hot indicator of row `b`'s target at class `k`. -/
theorem onehot_at (x1 : (⟨S131072, .i32⟩ : BufTy).Contents (Elt Ideal)) (b : Fin 131072) (k : Fin 128) :
    val_main_v0 (F := Ideal) x1 (ix2 b k) = Cert.RowLoss.hot (x1 (ix1 b)) k := by
  rw [val_main_v0_apply, val_main_call0_v4_apply, val_main_call0_v2_apply, val_main_call0_v0_apply,
    val_main_call0_v3_apply, val_main_call0_v1_apply]
  have e : idx_main_call0_v0 (idx_main_call0_v2 (ix2 b k)) = ix1 b := by
    funext a; match a with | ⟨0, _⟩ => rfl
  rw [e]
  rfl

/-! ## The row maximum at b -/

/-- The row index `b` with the class coordinate `k` put back on the reduced axis is (b, k). -/
theorem lift_row (h : S131072x128.Reduces [1] S131072) (b : Fin 131072) (k : Fin (S131072x128.size 1)) :
    h.lift (ix1 b) k = ix2 b (⟨k.val, k.isLt⟩ : Fin 128) := by
  funext c; apply Fin.ext
  match c with
  | ⟨0, _⟩ => rfl
  | ⟨1, _⟩ => rfl

set_option maxRecDepth 16384 in
/-- The maximum-reduce of the logits along the classes, from −∞, at row `b`: the fold of `max` over the row. -/
theorem rowmax_at (x0 : (⟨S131072x128, .f32⟩ : BufTy).Contents (Elt Ideal)) (b : Fin 131072) :
    val_main_v1 (F := Ideal) x0 (ix1 b) = Cert.RowLoss.rowMax (fun j => x0 (ix2 b j)) := by
  have h : S131072x128.Reduces [1] S131072 := by decide
  unfold val_main_v1
  refine (Host.reduce_eq_fold_single (FloatOps.maximumf (F := Ideal) (φ := .f32)) x0 _ reducesTo_S131072x128_S131072_d1 h h_S_ (ix1 b)).trans ?_
  have hf : (x0 ∘ h.lift (ix1 b)) = fun k : Fin 128 => x0 (ix2 b k) :=
    funext fun k => congrArg x0 (lift_row h b k)
  exact congrArg (fun f => Finset.fold max (Ideal.ofBits .f32 0xFF800000#32) f (Finset.univ : Finset (Fin 128))) hf

/-! ## The shifted exponential at (b, k) -/

/-- The logit minus the row maximum (broadcast back along the classes), exponentiated. -/
theorem exp_at (x0 : (⟨S131072x128, .f32⟩ : BufTy).Contents (Elt Ideal)) (b : Fin 131072) (k : Fin 128) :
    val_main_v5 (F := Ideal) x0 (ix2 b k) = Cert.RowLoss.ex (fun j => x0 (ix2 b j)) k := by
  rw [val_main_v5_apply, val_main_v4_apply, val_main_v3_apply, val_main_v2_apply]
  have e : idx_main_v2 (idx_main_v3 (ix2 b k)) = ix1 b := by
    funext a; match a with | ⟨0, _⟩ => rfl
  rw [e, rowmax_at]
  rfl

/-! ## The off-target exponential at (b, k), and the mixed sum at (b, j) -/

/-- One minus the indicator, times the exponential. -/
theorem offTarget_at (x0 : (⟨S131072x128, .f32⟩ : BufTy).Contents (Elt Ideal)) (x1 : (⟨S131072, .i32⟩ : BufTy).Contents (Elt Ideal))
    (b : Fin 131072) (k : Fin 128) :
    val_main_v8 (F := Ideal) x0 x1 (ix2 b k)
      = (Ideal.ofBits .f32 0x3F800000#32 - Cert.RowLoss.hot (x1 (ix1 b)) k) * Cert.RowLoss.ex (fun j => x0 (ix2 b j)) k := by
  rw [val_main_v8_apply, val_main_v7_apply, val_main_v6_apply, val_main_cst_0_apply, onehot_at, exp_at]
  rfl

/-- The transposed factor matrix at (k, j) is the factor matrix at (j, k). -/
theorem transposed_at (x4 : (⟨S128x128, .f32⟩ : BufTy).Contents (Elt Ideal)) (k j : Fin 128) :
    val_main_v9 (F := Ideal) x4 (ix2 k j) = x4 (ix2 j k) := by
  rw [val_main_v9_apply]
  exact congrArg x4 (funext fun a => match a with | ⟨0, _⟩ => rfl | ⟨1, _⟩ => rfl)

/-- The contraction of the off-target exponentials against the transposed factor matrix: the mixed sum of class `j`. -/
theorem mix_at (x0 : (⟨S131072x128, .f32⟩ : BufTy).Contents (Elt Ideal)) (x1 : (⟨S131072, .i32⟩ : BufTy).Contents (Elt Ideal))
    (x4 : (⟨S128x128, .f32⟩ : BufTy).Contents (Elt Ideal)) (b : Fin 131072) (j : Fin 128) :
    val_main_v10 (F := Ideal) x0 x1 x4 (ix2 b j)
      = Cert.RowLoss.mix (fun j => x0 (ix2 b j)) (x1 (ix1 b)) (fun k j => x4 (ix2 j k)) j := by
  rw [val_main_v10_apply]
  unfold Cert.RowLoss.mix
  refine Finset.sum_congr rfl fun k _ => ?_
  have el : lidx_main_v10 (ix2 b j) k = ix2 b k := by
    funext a; match a with | ⟨0, _⟩ => rfl | ⟨1, _⟩ => rfl
  have er : ridx_main_v10 (ix2 b j) k = ix2 k j := by
    funext a; match a with | ⟨0, _⟩ => rfl | ⟨1, _⟩ => rfl
  rw [el, er, transposed_at, offTarget_at]

/-! ## The balanced softmax weight at (b, j) -/

/-- The exponential over the mixed sum plus the exponential plus ε. -/
theorem sig_at (x0 : (⟨S131072x128, .f32⟩ : BufTy).Contents (Elt Ideal)) (x1 : (⟨S131072, .i32⟩ : BufTy).Contents (Elt Ideal))
    (x4 : (⟨S128x128, .f32⟩ : BufTy).Contents (Elt Ideal)) (b : Fin 131072) (j : Fin 128) :
    val_main_v14 (F := Ideal) x0 x1 x4 (ix2 b j)
      = Cert.RowLoss.sig (fun j => x0 (ix2 b j)) (x1 (ix1 b)) (fun k j => x4 (ix2 j k)) j := by
  rw [val_main_v14_apply, val_main_v13_apply, val_main_v11_apply, val_main_v12_apply, val_main_cst_1_apply, mix_at, exp_at]
  rfl

/-! ## The per-class factor, negated and broadcast along the rows, at (b, j) -/

/-- The per-class factor laid out as one row, negated, broadcast to every row: at (b, j) minus the factor of class `j`. -/
theorem negFactor_at (x2 x3 : (⟨S128x64, .f32⟩ : BufTy).Contents (Elt Ideal)) (b : Fin 131072) (j : Fin 128) :
    val_main_v29 (F := Ideal) x2 x3 (ix2 b j) = -(val_main_v26 (F := Ideal) x2 x3 (ix1 j)) := by
  rw [val_main_v29_apply, val_main_v28_apply, val_main_v27_apply]
  have e : idx_main_v27 (idx_main_v29 (ix2 b j)) = ix1 j := by
    funext a; match a with | ⟨0, _⟩ => rfl
  rw [e]
  rfl

/-! ## Class j's term at (b, j), and the row's sum -/

/-- The negated factor times the indicator, times the logarithm of the weight plus ε. -/
theorem term_at (x0 : (⟨S131072x128, .f32⟩ : BufTy).Contents (Elt Ideal)) (x1 : (⟨S131072, .i32⟩ : BufTy).Contents (Elt Ideal))
    (x2 x3 : (⟨S128x64, .f32⟩ : BufTy).Contents (Elt Ideal)) (x4 : (⟨S128x128, .f32⟩ : BufTy).Contents (Elt Ideal))
    (b : Fin 131072) (j : Fin 128) :
    val_main_v34 (F := Ideal) x0 x1 x2 x3 x4 (ix2 b j)
      = Cert.RowLoss.term (fun j => x0 (ix2 b j)) (x1 (ix1 b)) (fun k j => x4 (ix2 j k))
          (fun j => val_main_v26 (F := Ideal) x2 x3 (ix1 j)) j := by
  rw [val_main_v34_apply, val_main_v30_apply, val_main_v33_apply, val_main_v32_apply, val_main_v31_apply,
    val_main_cst_6_apply, negFactor_at, onehot_at, sig_at]
  rfl

/-- The reference's per-row sum at row `b`: the zero word plus the row's loss. -/
theorem v35_apply (x0 : (⟨S131072x128, .f32⟩ : BufTy).Contents (Elt Ideal)) (x1 : (⟨S131072, .i32⟩ : BufTy).Contents (Elt Ideal))
    (x2 x3 : (⟨S128x64, .f32⟩ : BufTy).Contents (Elt Ideal)) (x4 : (⟨S128x128, .f32⟩ : BufTy).Contents (Elt Ideal)) (b : Fin 131072) :
    val_main_v35 (F := Ideal) x0 x1 x2 x3 x4 (ix1 b)
      = Ideal.ofBits .f32 0x00000000#32
        + Cert.RowLoss.rowLoss (fun j => x0 (ix2 b j)) (x1 (ix1 b)) (fun k j => x4 (ix2 j k)) (fun j => val_main_v26 (F := Ideal) x2 x3 (ix1 j)) := by
  rw [val_main_v35_apply, val_main_cst_7_apply]
  unfold Cert.RowLoss.rowLoss
  refine congrArg (_ + ·) (Finset.sum_congr rfl fun k _ => ?_)
  have e : idx_main_v35 (ix1 b) k = ix2 b k := by
    funext a; match a with | ⟨0, _⟩ => rfl | ⟨1, _⟩ => rfl
  rw [e, term_at]

end Cert.ReferenceIdeal.Hand

end
-- ==== Proof.Bridge.lean ====
/-
  The two results are one value.

  The kernel program ends with the losses column summed from the zero word and divided by the row count; the reference ends
  with the rows' sums (each from the zero word) summed from the zero word and divided by the same count. Row `b`'s entry of
  the column and row `b`'s sum in the reference are the same row loss of the same argument arrays; the zero word is the
  extended real 0; and the column's indices `[131072, 1]` and the vector's indices `[131072]` are matched by their row
  coordinate. So the two totals, and with them the two quotients, are equal.
-/
import proofs.«140857_j53996328846078_1_alg».proof.Proof.KernelArray
import proofs.«140857_j53996328846078_1_alg».proof.Proof.RefRow
import proofs.«140857_j53996328846078_1_alg».proof.Proof.RowLoss
import Idealize.ShloMosaic.Lib.ValueIdx
import Idealize.ShloMosaic.PureOps.Ideal.Laws

set_option maxRecDepth 16384

noncomputable section

open Idealize.ShloMosaic Idealize.ShloMosaic.TcCoe Idealize.SL.Sem Idealize.ShloMosaic.ValueIdx

namespace Cert.Bridge

open Cert.KernelIdeal Cert.KernelIdeal.Gen Cert.KernelIdeal.Arr

variable (m : (ℓ : Loc nD τ sig) → Buf (Elt Ideal) ℓ)

/-- The kernel's sum of the losses column, from the zero word, is the zero word plus the sum over the column's indices. -/
theorem colSum_eq (c : Dev nD) (i : S_.Idx) :
    Host.reduceAdd (F := Ideal) (lossCol m c) (constant S_ .f32 0x00000000#32) reducesTo_S131072x1_S_d0_1 h_S_ i
      = Ideal.ofBits .f32 0x00000000#32 + ∑ j : S131072x1.Idx, lossCol m c j := by
  simp only [Host.reduceAdd, Ideal.hostReduceAdd_def]
  exact Ideal.hostReduceAdd_total reducesTo_S131072x1_S_d0_1 (fun b => b.elim0) (lossCol m c) _ i

/-- The sum over the losses column is the sum over the reference's per-row sums of the same argument arrays. -/
theorem sums_eq (c : Dev nD) :
    (∑ j : S131072x1.Idx, lossCol m c j)
      = ∑ j : Cert.ReferenceIdeal.S131072.Idx, Cert.ReferenceIdeal.Read.val_main_v35 (F := Ideal)
          (m ((c : Thread nD τ).loc main_arg0)) (m ((c : Thread nD τ).loc main_arg1)) (m ((c : Thread nD τ).loc main_arg2))
          (m ((c : Thread nD τ).loc main_arg3)) (m ((c : Thread nD τ).loc main_arg4)) j := by
  refine (Cert.RowLoss.sum_col_eq_sum_vec (rowOf m c)).trans ?_
  refine Finset.sum_congr rfl fun j _ => ?_
  obtain ⟨b, rfl⟩ : ∃ b : Fin 131072, j = ix1 b := ⟨j 0, eq_ix1 j⟩
  rw [Cert.ReferenceIdeal.Hand.v35_apply, Ideal.ofBits_zero_f32, zero_add]
  exact rowOf_eq m c b

/-- The kernel program's result is the reference's last stage of the same argument arrays. -/
theorem result_eq (c : Dev nD) :
    result m c
      = Cert.ReferenceIdeal.Read.val_main_v37 (F := Ideal)
          (m ((c : Thread nD τ).loc main_arg0)) (m ((c : Thread nD τ).loc main_arg1)) (m ((c : Thread nD τ).loc main_arg2))
          (m ((c : Thread nD τ).loc main_arg3)) (m ((c : Thread nD τ).loc main_arg4)) := by
  funext i
  rw [Cert.ReferenceIdeal.Read.val_main_v37_apply, Cert.ReferenceIdeal.Read.val_main_v36_apply, ← sums_eq m c]
  show Ideal.div (Host.reduceAdd (F := Ideal) (lossCol m c) (constant S_ .f32 0x00000000#32) reducesTo_S131072x1_S_d0_1 h_S_ i) _ = _
  rw [colSum_eq]
  rfl

end Cert.Bridge

end
-- ==== Proof.lean ====
/-
  The certificate's claim: the kernel program and its idealization run and keep their arguments (the generated frames), the
  reference runs and keeps its arguments (its generated run), the idealization rewrote nothing, and at the extended reals the
  idealized kernel and the idealized reference end with equal results.

  Both programs compute the mean over the 131072 rows of a per-row loss (`Cert.RowLoss.rowLoss`): with `e_j` the exponential
  of class `j`'s logit minus the row's maximum, `hot` the one-hot indicator of the row's target, `g` the transposed factor
  matrix and `p` the per-class factor computed from the two prototype arrays,
    ∑ j, ((− p j) · hot j) · log (e_j / ((∑ k, ((1 − hot k) · e_k) · g k j + e_j) + ε) + ε).
  The kernel computes it block by block of 2048 rows inside one region (a lane maximum, a matrix product into the zero
  accumulator, a lane sum), the reference on the whole arrays by host operations (a max-reduce, a `dot_general`, an
  add-reduce); read at a row both are the same expression of extended reals, operation by operation (Proof/KernelRow.lean,
  Proof/RefRow.lean). The kernel's column of row losses (Proof/KernelArray.lean) summed over its `[131072, 1]` indices is the
  reference's vector of row sums summed over its `[131072]` indices, and both divide by the same count (Proof/Bridge.lean).
  No law of the extended reals beyond `0 + a = a` and `0 − a = −a` is used, so finiteness of the inputs is not needed.
-/
import proofs.«140857_j53996328846078_1_alg».proof.Defs
import proofs.«140857_j53996328846078_1_alg».proof.Proof.Gen.Kernel
import proofs.«140857_j53996328846078_1_alg».proof.Proof.Gen.Kernel.Skeleton
import proofs.«140857_j53996328846078_1_alg».proof.Proof.Gen.Kernel.Launch
import proofs.«140857_j53996328846078_1_alg».proof.Proof.Gen.Kernel.Points
import proofs.«140857_j53996328846078_1_alg».proof.Proof.Gen.Kernel.Frame
import proofs.«140857_j53996328846078_1_alg».proof.Proof.Gen.KernelIdeal
import proofs.«140857_j53996328846078_1_alg».proof.Proof.Gen.KernelIdeal.Skeleton
import proofs.«140857_j53996328846078_1_alg».proof.Proof.Gen.KernelIdeal.Launch
import proofs.«140857_j53996328846078_1_alg».proof.Proof.Gen.KernelIdeal.Points
import proofs.«140857_j53996328846078_1_alg».proof.Proof.Gen.KernelIdeal.Frame
import proofs.«140857_j53996328846078_1_alg».proof.Proof.Gen.ReferenceIdeal
import proofs.«140857_j53996328846078_1_alg».proof.Proof.Gen.ReferenceIdeal.Run
import proofs.«140857_j53996328846078_1_alg».proof.Proof.Gen.ReferenceIdeal.Read
import proofs.«140857_j53996328846078_1_alg».proof.Proof.Gen.Pre_finite_inputs
import proofs.«140857_j53996328846078_1_alg».proof.Proof.KernelArray
import proofs.«140857_j53996328846078_1_alg».proof.Proof.Bridge
import Idealize.ShloMosaic.Adequacy
import Idealize.ShloMosaic.Init

noncomputable section

namespace Cert.Proof

open Idealize.ShloMosaic Idealize.SL.Sem

/-- The kernel program runs and keeps its arguments: its generated frame. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference runs and keeps its arguments: its generated run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- From memories agreeing on the arguments both idealized programs run and end with the same result: the kernel's run ends
    at the mean of its losses column, the reference's at its last stage, and the two are equal (`Cert.Bridge.result_eq`). -/
theorem algebraic : Cert.algebraic_KernelIdeal_ReferenceIdeal := by
  intro m ρ m' ρ' _ hagree
  refine ⟨fun c => Cert.KernelIdeal.Arr.result m c, Cert.KernelIdeal.Arr.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v37_eq]
  obtain ⟨h0, h1, h2, h3, h4⟩ := hagree c
  rw [h0, h1, h2, h3, h4]
  exact (Cert.Bridge.result_eq m c).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
